-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v9)) (v1 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_v10) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_v17) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x1024 : Shape := ⟨3, ![8, 4096, 1024]⟩
abbrev S1024x1024 : Shape := ⟨2, ![1024, 1024]⟩
abbrev S1024 : Shape := ⟨1, ![1024]⟩
abbrev S_ : Shape := ⟨0, ![]⟩

class Facts : Prop where
  bcast_S_S8x4096x1024 : S_.BroadcastsInDim S8x4096x1024 (![] : Fin 0 → Fin S8x4096x1024.rank)
  reducesTo_S8x4096x1024_S_d0_1_2 : S8x4096x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_arg5 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  main_v28

def fn {F : FTy → Type} [FloatOps F] (main_arg0 : FVec F S8x4096x1024 .f32) (main_arg1 : FVec F S8x4096x1024 .f32) (main_arg2 : FVec F S1024x1024 .f32) (main_arg3 : FVec F S1024x1024 .f32) (main_arg4 : FVec F S1024 .f32) (main_arg5 : FVec F S1024 .f32) : IVec S_ 1 :=
  let main_v0 : FVec F S8x4096x1024 .f32 := Host.absf main_arg0
  let main_cst : FVec F S_ .f32 := constant S_ .f32 0x7F800000#32
  let main_v1 : FVec F S8x4096x1024 .f32 := broadcastInDim S8x4096x1024 ![] bcast_S_S8x4096x1024 main_cst
  let main_v2 : IVec S8x4096x1024 1 := cmpf .olt main_v0 main_v1
  let main_c : IVec S_ 1 := constantI S_ 1 1#1
  let main_v3 : IVec S_ 1 := (fun x v => Host.reduce IntOp.andi x v reducesTo_S8x4096x1024_S_d0_1_2 h_S_) main_v2 main_c
  let main_v4 : FVec F S8x4096x1024 .f32 := Host.absf main_arg1
  let main_cst_0 : FVec F S_ .f32 := constant S_ .f32 0x7F800000#32
  let main_v5 : FVec F S8x4096x1024 .f32 := broadcastInDim S8x4096x1024 ![] bcast_S_S8x4096x1024 main_cst_0
  let main_v6 : IVec S8x4096x1024 1 := cmpf .olt main_v4 main_v5
  let main_c_1 : IVec S_ 1 := constantI S_ 1 1#1
  let main_v7 : IVec S_ 1 := (fun x v => Host.reduce IntOp.andi x v reducesTo_S8x4096x1024_S_d0_1_2 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_v13 main_v16
-- ==== Kernel.lean ====
abbrev S8x4096x1024 : Shape := ⟨3, ![8, 4096, 1024]⟩
abbrev S1024x1024 : Shape := ⟨2, ![1024, 1024]⟩
abbrev S1024 : Shape := ⟨1, ![1024]⟩
abbrev S32768x1024 : Shape := ⟨2, ![32768, 1024]⟩
abbrev S1x1024 : Shape := ⟨2, ![1, 1024]⟩
abbrev S256x1024 : Shape := ⟨2, ![256, 1024]⟩

abbrev nBuf : Space → Nat
  | .hbm => 18
  | .vmem => 12
  | .smem => 0
  | _ => 0

abbrev bufTy : (tb : Table) → Fin (tcTables nBuf tb) → BufTy
  | .hbm, ⟨0, _⟩ => ⟨S8x4096x1024, .f32⟩
  | .hbm, ⟨1, _⟩ => ⟨S8x4096x1024, .f32⟩
  | .hbm, ⟨2, _⟩ => ⟨S1024x1024, .f32⟩
  | .hbm, ⟨3, _⟩ => ⟨S1024x1024, .f32⟩
  | .hbm, ⟨4, _⟩ => ⟨S1024, .f32⟩
  | .hbm, ⟨5, _⟩ => ⟨S1024, .f32⟩
  | .hbm, ⟨6, _⟩ => ⟨S32768x1024, .f32⟩
  | .hbm, ⟨7, _⟩ => ⟨S32768x1024, .f32⟩
  | .hbm, ⟨8, _⟩ => ⟨S1024x1024, .f32⟩
  | .hbm, ⟨9, _⟩ => ⟨S1024x1024, .bf16⟩
  | .hbm, ⟨10, _⟩ => ⟨S1024x1024, .f32⟩
  | .hbm, ⟨11, _⟩ => ⟨S1024x1024, .bf16⟩
  | .hbm, ⟨12, _⟩ => ⟨S1x1024, .f32⟩
  | .hbm, ⟨13, _⟩ => ⟨S1x1024, .f32⟩
  | .hbm, ⟨14, _⟩ => ⟨S32768x1024, .f32⟩
  | .hbm, ⟨15, _⟩ => ⟨S32768x1024, .f32⟩
  | .hbm, ⟨16, _⟩ => ⟨S8x4096x1024, .f32⟩
  | .hbm, ⟨17, _⟩ => ⟨S8x4096x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1024x1024, .bf16⟩
  | .local _ .vmem, ⟨5, _⟩ => ⟨S1024x1024, .bf16⟩
  | .local _ .vmem, ⟨6, _⟩ => ⟨S1x1024, .f32⟩
  | .local _ .vmem, ⟨7, _⟩ => ⟨S1x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8_0 : Ref sig .tc := ⟨.hbm, 14, rfl⟩
abbrev main_v8_1 : Ref sig .tc := ⟨.hbm, 15, rfl⟩
abbrev main_v9 : Ref sig .tc := ⟨.hbm, 16, rfl⟩
abbrev main_v10 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  shapeCasts_S8x4096x1024_S32768x1024 : S8x4096x1024.ShapeCasts S32768x1024
  transposes_S1024x1024_S1024x1024_1_0 : S1024x1024.Transposes [1, 0] S1024x1024
  bitsLt_bf16_f32 : FTy.bits .bf16 < FTy.bits .f32
  shapeCasts_S1024_S1x1024 : S1024.ShapeCasts S1x1024
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S256x1024 : S1x1024.Broadcasts S256x1024
  shapeCasts_S32768x1024_S8x4096x1024 : S32768x1024.ShapeCasts S8x4096x1024
  dot_S256x1024_S1024x1024_S256x1024_1_0_0_1_n_n_wf : DotDims.WF S256x1024 S1024x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S32768x1024.size a
  hwx0_0 : ∀ i : grid0.Coords, EltTy.bits .f32 = 32 ∨ (Rect.block (s := S32768x1024) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S32768x1024.size a
  hwx0_1 : ∀ i : grid0.Coords, EltTy.bits .f32 = 32 ∨ (Rect.block (s := S32768x1024) S256x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .bf16 = 32 ∨ (Rect.block (s := S1024x1024) S1024x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x1024.size a
  hwx0_5 : ∀ i : grid0.Coords, EltTy.bits .f32 = 32 ∨ (Rect.block (s := S1x1024) S1x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x1024.size a ≤ S32768x1024.size a
  hwx0_6 : ∀ i : grid0.Coords, EltTy.bits .f32 = 32 ∨ (Rect.block (s := S32768x1024) S256x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S256x1024.size a ≤ S32768x1024.size a
  hwx0_7 : ∀ i : grid0.Coords, EltTy.bits .f32 = 32 ∨ (Rect.block (s := S32768x1024) S256x1024.size (cc0_transform_7 i) (hinb0_7 i)).WholeWords (EltTy.packing .f32)

variable [Facts₀]

def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf

abbrev win0_0 : Pipeline.Window sig grid0 :=
  Pipeline.Window.ofSpec (Memref.whole main_v0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S1x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v8_0) S256x1024.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v8_1) S256x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S8x4096x1024 : Shape := ⟨3, ![8, 4096, 1024]⟩
abbrev S1024x1024 : Shape := ⟨2, ![1024, 1024]⟩
abbrev S1024 : Shape := ⟨1, ![1024]⟩
abbrev S1x1x1024 : Shape := ⟨3, ![1, 1, 1024]⟩

abbrev nBuf : Space → Nat
  | .hbm => 24
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x4096x1024, .f32⟩
  | .hbm, ⟨2, _⟩ => ⟨S1024x1024, .f32⟩
  | .hbm, ⟨3, _⟩ => ⟨S1024x1024, .f32⟩
  | .hbm, ⟨4, _⟩ => ⟨S1024, .f32⟩
  | .hbm, ⟨5, _⟩ => ⟨S1024, .f32⟩
  | .hbm, ⟨6, _⟩ => ⟨S8x4096x1024, .f32⟩
  | .hbm, ⟨7, _⟩ => ⟨S8x4096x1024, .f32⟩
  | .hbm, ⟨8, _⟩ => ⟨S8x4096x1024, .f32⟩
  | .hbm, ⟨9, _⟩ => ⟨S8x4096x1024, .f32⟩
  | .hbm, ⟨10, _⟩ => ⟨S1x1x1024, .f32⟩
  | .hbm, ⟨11, _⟩ => ⟨S8x4096x1024, .f32⟩
  | .hbm, ⟨12, _⟩ => ⟨S8x4096x1024, .f32⟩
  | .hbm, ⟨13, _⟩ => ⟨S1x1x1024, .f32⟩
  | .hbm, ⟨14, _⟩ => ⟨S8x4096x1024, .f32⟩
  | .hbm, ⟨15, _⟩ => ⟨S8x4096x1024, .f32⟩
  | .hbm, ⟨16, _⟩ => ⟨S8x4096x1024, .f32⟩
  | .hbm, ⟨17, _⟩ => ⟨S1x1x1024, .f32⟩
  | .hbm, ⟨18, _⟩ => ⟨S8x4096x1024, .f32⟩
  | .hbm, ⟨19, _⟩ => ⟨S8x4096x1024, .f32⟩
  | .hbm, ⟨20, _⟩ => ⟨S1x1x1024, .f32⟩
  | .hbm, ⟨21, _⟩ => ⟨S8x4096x1024, .f32⟩
  | .hbm, ⟨22, _⟩ => ⟨S8x4096x1024, .f32⟩
  | .hbm, ⟨23, _⟩ => ⟨S8x4096x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S8x4096x1024_0_1_2 : S1x1x1024.BroadcastsInDim S8x4096x1024 (![0, 1, 2] : Fin 3 → Fin S8x4096x1024.rank)
  dot_S8x4096x1024_S1024x1024_S8x4096x1024_2_1_01_0_n_n_wf : DotDims.WF S8x4096x1024 S1024x1024 S8x4096x1024 [2] [1] [0, 1] [0] [] []

variable [Facts₀]

def dot_S8x4096x1024_S1024x1024_S8x4096x1024_2_1_01_0_n_n : DotDims S8x4096x1024 S1024x1024 S8x4096x1024 where
  lhsContracting := [2]
  rhsContracting := [1]
  lhsNonContracting := [0, 1]
  rhsNonContracting := [0]
  lhsBatch := []
  rhsBatch := []
  wf := dot_S8x4096x1024_S1024x1024_S8x4096x1024_2_1_01_0_n_n_wf

class Facts : Prop extends Facts₀ where

variable [Facts]
-- ==== Proof.Spec.lean ====
/-
  What both programs compute, as two functions of the six argument arrays over the extended reals.

  A signal row `x[b, f, ·]` of 1024 samples is correlated with row `k` of a weight matrix:
  `tap x w b f k = ∑ n, x[b, f, n] · w[k, n]` (a full-window convolution is this matrix product over the last axis).
  With the four taps of the real and imaginary signals against the real and imaginary weights and the two bias rows,
    real[b, f, k] = (tap x_r w_r + b_r[k]) − (tap x_i w_i + b_i[k])
    imag[b, f, k] = (tap x_r w_i + b_i[k]) + (tap x_i w_r + b_r[k]).
  Nothing here needs the inputs to be finite: both programs form exactly these sums, products, sums and differences,
  in this bracketing, and only the ORDER in which a tap's 1024 products are enumerated differs — a sum over a finite
  type in a commutative monoid, which the extended reals under addition are.
-/
import Idealize.ShloMosaic.PureOps.Ideal
import Idealize.ShloMosaic.Lib.ValueIdx

noncomputable section

open scoped BigOperators

namespace Cert.DftSpec

open Idealize.ShloMosaic Idealize.ShloMosaic.ValueIdx

/-- The signals' shape `[8, 4096, 1024]`, the weights' `[1024, 1024]`, the biases' `[1024]`. -/
abbrev Sig : Shape := ⟨3, ![8, 4096, 1024]⟩
abbrev Wt : Shape := ⟨2, ![1024, 1024]⟩
abbrev Bias : Shape := ⟨1, ![1024]⟩

/-- Row `(b, f)` of the signal against row `k` of the weights. -/
def tap (x : Sig.Idx → EReal) (w : Wt.Idx → EReal) (b : Fin 8) (f : Fin 4096) (k : Fin 1024) : EReal :=
  ∑ n : Fin 1024, x (ix3 b f n) * w (ix2 k n)

/-- The real part of the transform. -/
def realPart (xr xi : Sig.Idx → EReal) (wr wi : Wt.Idx → EReal) (br bi : Bias.Idx → EReal) : Sig.Idx → EReal :=
  fun i => (tap xr wr (i 0) (i 1) (i 2) + br (ix1 (i 2))) - (tap xi wi (i 0) (i 1) (i 2) + bi (ix1 (i 2)))

/-- The imaginary part of the transform. -/
def imagPart (xr xi : Sig.Idx → EReal) (wr wi : Wt.Idx → EReal) (br bi : Bias.Idx → EReal) : Sig.Idx → EReal :=
  fun i => (tap xr wi (i 0) (i 1) (i 2) + bi (ix1 (i 2))) + (tap xi wr (i 0) (i 1) (i 2) + br (ix1 (i 2)))

/-! ## The same two functions over flattened rows

The kernel works on the signals flattened to `32768 = 8 · 4096` rows of 1024 samples, on the TRANSPOSED weights
(`W[n, k] = w[k, n]`) and on the biases as `1 × 1024` rows. In that layout entry `(r, q)` of the two results is -/

abbrev Rows : Shape := ⟨2, ![32768, 1024]⟩
abbrev Row1 : Shape := ⟨2, ![1, 1024]⟩

def realRow (a0 a1 : Rows.Idx → EReal) (w2 w3 : Wt.Idx → EReal) (b4 b5 : Row1.Idx → EReal) (r : Fin 32768) (q : Fin 1024) : EReal :=
  ((∑ n : Fin 1024, a0 (ix2 r n) * w2 (ix2 n q)) + b4 (ix2 (0 : Fin 1) q))
    - ((∑ n : Fin 1024, a1 (ix2 r n) * w3 (ix2 n q)) + b5 (ix2 (0 : Fin 1) q))

def imagRow (a0 a1 : Rows.Idx → EReal) (w2 w3 : Wt.Idx → EReal) (b4 b5 : Row1.Idx → EReal) (r : Fin 32768) (q : Fin 1024) : EReal :=
  ((∑ n : Fin 1024, a0 (ix2 r n) * w3 (ix2 n q)) + b5 (ix2 (0 : Fin 1) q))
    + ((∑ n : Fin 1024, a1 (ix2 r n) * w2 (ix2 n q)) + b4 (ix2 (0 : Fin 1) q))

/-- The flattened results as arrays. -/
def realRows (a0 a1 : Rows.Idx → EReal) (w2 w3 : Wt.Idx → EReal) (b4 b5 : Row1.Idx → EReal) : Rows.Idx → EReal :=
  fun i => realRow a0 a1 w2 w3 b4 b5 (i 0) (i 1)
def imagRows (a0 a1 : Rows.Idx → EReal) (w2 w3 : Wt.Idx → EReal) (b4 b5 : Row1.Idx → EReal) : Rows.Idx → EReal :=
  fun i => imagRow a0 a1 w2 w3 b4 b5 (i 0) (i 1)

/-- Row `f` of batch `b` is flat row `4096 · b + f`. -/
def flatRow (b : Fin 8) (f : Fin 4096) : Fin 32768 := ⟨b.val * 4096 + f.val, by have := b.isLt; have := f.isLt; omega⟩

end Cert.DftSpec

end
-- ==== Proof.RefValue.lean ====
/-
  The reference, read index by index, is the specification.

  Its four `dot_general`s contract the signal's last axis with the weights' second axis, so entry `(b, f, k)` of each is
  `∑ n, x[b, f, n] · w[k, n]`: the tap of Spec.lean with nothing re-indexed. Each bias reaches the sum through two
  broadcasts, `[1024] → [1, 1, 1024] → [8, 4096, 1024]`, which at `(b, f, k)` read entry `k`. The additions and the one
  subtraction are bracketed as in the specification.
-/
import proofs.«130078_j75677323756101_1_alg».proof.Proof.Gen.ReferenceIdeal.Read
import proofs.«130078_j75677323756101_1_alg».proof.Proof.Spec

noncomputable section

open scoped BigOperators

namespace Cert.ReferenceIdeal.RefValue

open Cert.ReferenceIdeal Cert.ReferenceIdeal.Read Idealize.ShloMosaic Idealize.ShloMosaic.ValueIdx Cert.DftSpec

/-! ## The operand indices of the four products: `(b, f, n)` in the signal, `(k, n)` in the weights -/

theorem lhs_at_v0 (i : S8x4096x1024.Idx) (n : Fin 1024) : lidx_main_v0 i n = ix3 (i 0) (i 1) n :=
  funext fun a => Fin.ext (by match a with | ⟨0, _⟩ => rfl | ⟨1, _⟩ => rfl | ⟨2, _⟩ => rfl)
theorem rhs_at_v0 (i : S8x4096x1024.Idx) (n : Fin 1024) : ridx_main_v0 i n = ix2 (i 2) n :=
  funext fun a => Fin.ext (by match a with | ⟨0, _⟩ => rfl | ⟨1, _⟩ => rfl)

theorem lhs_at_v1 (i : S8x4096x1024.Idx) (n : Fin 1024) : lidx_main_v1 i n = ix3 (i 0) (i 1) n :=
  funext fun a => Fin.ext (by match a with | ⟨0, _⟩ => rfl | ⟨1, _⟩ => rfl | ⟨2, _⟩ => rfl)
theorem rhs_at_v1 (i : S8x4096x1024.Idx) (n : Fin 1024) : ridx_main_v1 i n = ix2 (i 2) n :=
  funext fun a => Fin.ext (by match a with | ⟨0, _⟩ => rfl | ⟨1, _⟩ => rfl)

theorem lhs_at_v2 (i : S8x4096x1024.Idx) (n : Fin 1024) : lidx_main_v2 i n = ix3 (i 0) (i 1) n :=
  funext fun a => Fin.ext (by match a with | ⟨0, _⟩ => rfl | ⟨1, _⟩ => rfl | ⟨2, _⟩ => rfl)
theorem rhs_at_v2 (i : S8x4096x1024.Idx) (n : Fin 1024) : ridx_main_v2 i n = ix2 (i 2) n :=
  funext fun a => Fin.ext (by match a with | ⟨0, _⟩ => rfl | ⟨1, _⟩ => rfl)

theorem lhs_at_v3 (i : S8x4096x1024.Idx) (n : Fin 1024) : lidx_main_v3 i n = ix3 (i 0) (i 1) n :=
  funext fun a => Fin.ext (by match a with | ⟨0, _⟩ => rfl | ⟨1, _⟩ => rfl | ⟨2, _⟩ => rfl)
theorem rhs_at_v3 (i : S8x4096x1024.Idx) (n : Fin 1024) : ridx_main_v3 i n = ix2 (i 2) n :=
  funext fun a => Fin.ext (by match a with | ⟨0, _⟩ => rfl | ⟨1, _⟩ => rfl)

/-! ## A bias through its two broadcasts reads entry `k` -/

theorem bias_at_v5 (i : S8x4096x1024.Idx) : idx_main_v4 (idx_main_v5 i) = ix1 (i 2) :=
  funext fun a => Fin.ext (by match a with | ⟨0, _⟩ => rfl)

theorem bias_at_v8 (i : S8x4096x1024.Idx) : idx_main_v7 (idx_main_v8 i) = ix1 (i 2) :=
  funext fun a => Fin.ext (by match a with | ⟨0, _⟩ => rfl)

theorem bias_at_v12 (i : S8x4096x1024.Idx) : idx_main_v11 (idx_main_v12 i) = ix1 (i 2) :=
  funext fun a => Fin.ext (by match a with | ⟨0, _⟩ => rfl)

theorem bias_at_v15 (i : S8x4096x1024.Idx) : idx_main_v14 (idx_main_v15 i) = ix1 (i 2) :=
  funext fun a => Fin.ext (by match a with | ⟨0, _⟩ => rfl)

/-! ## The two results -/

/-- The reference's first result is the real part. -/
theorem real_eq (x0 x1 : (⟨S8x4096x1024, .f32⟩ : BufTy).Contents (Elt Ideal)) (x2 x3 : (⟨S1024x1024, .f32⟩ : BufTy).Contents (Elt Ideal)) (x4 x5 : (⟨S1024, .f32⟩ : BufTy).Contents (Elt Ideal)) :
    val_main_v10 (F := Ideal) x0 x1 x2 x3 x4 x5 = realPart x0 x1 x2 x3 x4 x5 := by
  funext i
  rw [val_main_v10_apply, val_main_v6_apply, val_main_v9_apply, val_main_v0_apply, val_main_v3_apply,
    val_main_v5_apply, val_main_v4_apply, val_main_v8_apply, val_main_v7_apply]
  simp only [lhs_at_v0, rhs_at_v0, lhs_at_v3, rhs_at_v3, bias_at_v5, bias_at_v8]
  rfl

/-- The reference's second result is the imaginary part. -/
theorem imag_eq (x0 x1 : (⟨S8x4096x1024, .f32⟩ : BufTy).Contents (Elt Ideal)) (x2 x3 : (⟨S1024x1024, .f32⟩ : BufTy).Contents (Elt Ideal)) (x4 x5 : (⟨S1024, .f32⟩ : BufTy).Contents (Elt Ideal)) :
    val_main_v17 (F := Ideal) x0 x1 x2 x3 x4 x5 = imagPart x0 x1 x2 x3 x4 x5 := by
  funext i
  rw [val_main_v17_apply, val_main_v13_apply, val_main_v16_apply, val_main_v1_apply, val_main_v2_apply,
    val_main_v12_apply, val_main_v11_apply, val_main_v15_apply, val_main_v14_apply]
  simp only [lhs_at_v1, rhs_at_v1, lhs_at_v2, rhs_at_v2, bias_at_v12, bias_at_v15]
  rfl

end Cert.ReferenceIdeal.RefValue

end
-- ==== Proof.Payload.lean ====
/-
  The kernel body's two stored values, read at one entry of the 256 × 1024 block.

  The body loads a block of 256 signal rows of each signal, both 1024 × 1024 weight matrices (already transposed and
  narrowed outside the kernel; narrowing is the identity on the extended reals) and the two bias rows, forms four
  `[256, 1024] · [1024, 1024]` products into a zero accumulator, and stores
    (x_r · W_r + b_r) − (x_i · W_i + b_i)   and   (x_r · W_i + b_i) + (x_i · W_r + b_r).
  At entry `(p, q)` a product is `∑ n, x[p, n] · W[n, q]` (one contracted axis: the left operand's columns against the
  right operand's rows), and a bias row broadcast down the block reads its entry `q`.
-/
import proofs.«130078_j75677323756101_1_alg».proof.Proof.Gen.KernelIdeal.Skeleton
import proofs.«130078_j75677323756101_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Payload

open Cert.KernelIdeal Cert.KernelIdeal.Gen Idealize.ShloMosaic Idealize.ShloMosaic.ValueIdx Cert.DftSpec

/-! ## The product's operand indices: output `(p, q)`, contraction position `n` ↦ left `(p, n)`, right `(n, q)` -/

theorem lhs_axis0 (i : S256x1024.Idx) (k : dot_S256x1024_S1024x1024_S256x1024_1_0_0_1_n_n.contr.Idx) :
    (dot_S256x1024_S1024x1024_S256x1024_1_0_0_1_n_n.lhsIdx i k 0).val = (i 0).val := by
  unfold DotDims.lhsIdx
  rw [dif_neg (show ¬(0 : Fin S256x1024.rank) ∈ dot_S256x1024_S1024x1024_S256x1024_1_0_0_1_n_n.lhsBatch by decide), dif_pos (show (0 : Fin S256x1024.rank) ∈ dot_S256x1024_S1024x1024_S256x1024_1_0_0_1_n_n.lhsNonContracting by decide)]
  rfl
theorem lhs_axis1 (i : S256x1024.Idx) (k : dot_S256x1024_S1024x1024_S256x1024_1_0_0_1_n_n.contr.Idx) :
    (dot_S256x1024_S1024x1024_S256x1024_1_0_0_1_n_n.lhsIdx i k 1).val = (k ⟨0, by decide⟩).val :=
  dot_S256x1024_S1024x1024_S256x1024_1_0_0_1_n_n.lhsIdx_val_of_single rfl i k
theorem rhs_axis0 (i : S256x1024.Idx) (k : dot_S256x1024_S1024x1024_S256x1024_1_0_0_1_n_n.contr.Idx) :
    (dot_S256x1024_S1024x1024_S256x1024_1_0_0_1_n_n.rhsIdx i k 0).val = (k ⟨0, by decide⟩).val :=
  dot_S256x1024_S1024x1024_S256x1024_1_0_0_1_n_n.rhsIdx_val_of_single rfl i k
theorem rhs_axis1 (i : S256x1024.Idx) (k : dot_S256x1024_S1024x1024_S256x1024_1_0_0_1_n_n.contr.Idx) :
    (dot_S256x1024_S1024x1024_S256x1024_1_0_0_1_n_n.rhsIdx i k 1).val = (i 1).val := by
  unfold DotDims.rhsIdx
  rw [dif_neg (show ¬(1 : Fin S1024x1024.rank) ∈ dot_S256x1024_S1024x1024_S256x1024_1_0_0_1_n_n.rhsBatch by decide), dif_pos (show (1 : Fin S1024x1024.rank) ∈ dot_S256x1024_S1024x1024_S256x1024_1_0_0_1_n_n.rhsNonContracting by decide)]
  rfl

/-- A block product into the zero accumulator, at an entry: the row of the left operand against the column of the right. -/
theorem product_at (l : FVec Ideal S256x1024 .bf16) (r : FVec Ideal S1024x1024 .bf16) (p : Fin 256) (q : Fin 1024) :
    matmul dot_S256x1024_S1024x1024_S256x1024_1_0_0_1_n_n none l r (constant (F := Ideal) S256x1024 .f32 0x00000000#32) (ix2 p q)
      = ∑ n : Fin 1024, l (ix2 p n) * r (ix2 n q) := by
  simp only [matmul]
  rw [Ideal.matmul_constant_zero_apply, ← Equiv.sum_comp (contrEquiv1 dot_S256x1024_S1024x1024_S256x1024_1_0_0_1_n_n 1024 rfl rfl).symm]
  refine Finset.sum_congr rfl fun n _ => ?_
  have hn := contrEquiv1_symm_val dot_S256x1024_S1024x1024_S256x1024_1_0_0_1_n_n 1024 rfl rfl n
  have el : dot_S256x1024_S1024x1024_S256x1024_1_0_0_1_n_n.lhsIdx (ix2 p q) ((contrEquiv1 dot_S256x1024_S1024x1024_S256x1024_1_0_0_1_n_n 1024 rfl rfl).symm n) = ix2 p n := funext fun a => Fin.ext (by
    match a with
    | ⟨0, _⟩ => exact lhs_axis0 _ _
    | ⟨1, _⟩ => exact (lhs_axis1 _ _).trans hn)
  have er : dot_S256x1024_S1024x1024_S256x1024_1_0_0_1_n_n.rhsIdx (ix2 p q) ((contrEquiv1 dot_S256x1024_S1024x1024_S256x1024_1_0_0_1_n_n 1024 rfl rfl).symm n) = ix2 n q := funext fun a => Fin.ext (by
    match a with
    | ⟨0, _⟩ => exact (rhs_axis0 _ _).trans hn
    | ⟨1, _⟩ => exact rhs_axis1 _ _)
  rw [el, er]

/-! ## The loaded blocks as the products and sums see them -/

/-- A signal block narrowed for the matrix unit is the block. -/
theorem signal1_at (x : Vec Ideal S256x1024 .f32) (j : S256x1024.Idx) : k0_pay1 (F := Ideal) x j = x j := by
  unfold k0_pay1
  rw [truncf_apply, shapeCast_self]
theorem signal2_at (x : Vec Ideal S256x1024 .f32) (j : S256x1024.Idx) : k0_pay2 (F := Ideal) x j = x j := by
  unfold k0_pay2
  rw [truncf_apply, shapeCast_self]
theorem weight3_eq (w : Vec Ideal S1024x1024 .bf16) : k0_pay3 (F := Ideal) w = w := by
  unfold k0_pay3; dsimp only
  rw [shapeCast_self]
theorem weight4_eq (w : Vec Ideal S1024x1024 .bf16) : k0_pay4 (F := Ideal) w = w := by
  unfold k0_pay4; dsimp only
  rw [shapeCast_self]
theorem bias5_eq (b : Vec Ideal S1x1024 .f32) : k0_pay5 (F := Ideal) b = b := by
  unfold k0_pay5; dsimp only
  rw [shapeCast_self]
theorem bias6_eq (b : Vec Ideal S1x1024 .f32) : k0_pay6 (F := Ideal) b = b := by
  unfold k0_pay6; dsimp only
  rw [shapeCast_self]

/-! ## The two stored values at an entry -/

/-- The first store, at `(p, q)`. -/
theorem real_at (x0 x1 : Vec Ideal S256x1024 .f32) (x2 x3 : Vec Ideal S1024x1024 .bf16) (x4 x5 : Vec Ideal S1x1024 .f32)
    (p : Fin 256) (q : Fin 1024) :
    k0_pay7 (F := Ideal) x0 x1 x2 x3 x4 x5 (ix2 p q)
      = ((∑ n : Fin 1024, x0 (ix2 p n) * x2 (ix2 n q)) + x4 (ix2 (0 : Fin 1) q))
        - ((∑ n : Fin 1024, x1 (ix2 p n) * x3 (ix2 n q)) + x5 (ix2 (0 : Fin 1) q)) := by
  unfold k0_pay7
  rw [subf_apply, addf_apply, addf_apply, product_at, product_at, broadcastTo_1b_ab_apply, broadcastTo_1b_ab_apply,
    weight3_eq, weight4_eq, bias5_eq, bias6_eq]
  simp only [signal1_at, signal2_at]

/-- The second store, at `(p, q)`. -/
theorem imag_at (x0 x1 : Vec Ideal S256x1024 .f32) (x2 x3 : Vec Ideal S1024x1024 .bf16) (x4 x5 : Vec Ideal S1x1024 .f32)
    (p : Fin 256) (q : Fin 1024) :
    k0_pay8 (F := Ideal) x0 x1 x2 x3 x4 x5 (ix2 p q)
      = ((∑ n : Fin 1024, x0 (ix2 p n) * x3 (ix2 n q)) + x5 (ix2 (0 : Fin 1) q))
        + ((∑ n : Fin 1024, x1 (ix2 p n) * x2 (ix2 n q)) + x4 (ix2 (0 : Fin 1) q)) := by
  unfold k0_pay8
  rw [addf_apply, addf_apply, addf_apply, product_at, product_at, broadcastTo_1b_ab_apply, broadcastTo_1b_ab_apply,
    weight3_eq, weight4_eq, bias5_eq, bias6_eq]
  simp only [signal1_at, signal2_at]

/-! ## The stored values as entries of the flattened results

When row `p` of each signal block is flat row `r` of its signal, and the other four blocks are the whole transposed
weights and bias rows, the stored values at `(p, q)` are the flattened results at `(r, q)`. -/

theorem real_of_rows (x0 x1 : Vec Ideal S256x1024 .f32) (x2 x3 : Vec Ideal S1024x1024 .bf16) (x4 x5 : Vec Ideal S1x1024 .f32)
    (a0 a1 : Rows.Idx → EReal) (w2 w3 : Wt.Idx → EReal) (b4 b5 : Row1.Idx → EReal) (p : Fin 256) (q : Fin 1024) (r : Fin 32768)
    (h0 : ∀ n : Fin 1024, x0 (ix2 p n) = a0 (ix2 r n)) (h1 : ∀ n : Fin 1024, x1 (ix2 p n) = a1 (ix2 r n))
    (h2 : x2 = w2) (h3 : x3 = w3) (h4 : x4 = b4) (h5 : x5 = b5) :
    k0_pay7 (F := Ideal) x0 x1 x2 x3 x4 x5 (ix2 p q) = realRow a0 a1 w2 w3 b4 b5 r q := by
  subst h2 h3 h4 h5
  rw [real_at]
  unfold realRow
  simp only [h0, h1]

theorem imag_of_rows (x0 x1 : Vec Ideal S256x1024 .f32) (x2 x3 : Vec Ideal S1024x1024 .bf16) (x4 x5 : Vec Ideal S1x1024 .f32)
    (a0 a1 : Rows.Idx → EReal) (w2 w3 : Wt.Idx → EReal) (b4 b5 : Row1.Idx → EReal) (p : Fin 256) (q : Fin 1024) (r : Fin 32768)
    (h0 : ∀ n : Fin 1024, x0 (ix2 p n) = a0 (ix2 r n)) (h1 : ∀ n : Fin 1024, x1 (ix2 p n) = a1 (ix2 r n))
    (h2 : x2 = w2) (h3 : x3 = w3) (h4 : x4 = b4) (h5 : x5 = b5) :
    k0_pay8 (F := Ideal) x0 x1 x2 x3 x4 x5 (ix2 p q) = imagRow a0 a1 w2 w3 b4 b5 r q := by
  subst h2 h3 h4 h5
  rw [imag_at]
  unfold imagRow
  simp only [h0, h1]

end Cert.KernelIdeal.Payload

end
-- ==== Proof.Blocks.lean ====
/-
  From blocks to arrays: after the region each of the two output arrays holds the flattened result.

  The grid has 128 points. At point `t` the two signal windows and the two output windows are on block `(t, 0)`: rows
  `256 · t … 256 · t + 255` of a `32768 × 1024` array, all 1024 columns. The weight and bias windows stay on block
  `(0, 0)`, which is their whole array. So entry `(p, q)` of what a point writes back is entry `(256 · t + p, q)` of the
  flattened result (Payload.lean, with the blocks read as rows of the arrays), every point writes back, and the 128 row
  bands cover the array: row `r` lies in band `r / 256`.
-/
import proofs.«130078_j75677323756101_1_alg».proof.Proof.Gen.KernelIdeal.Frame
import proofs.«130078_j75677323756101_1_alg».proof.Proof.Payload
import Idealize.ShloMosaic.Lib.Pipeline.Value

set_option maxRecDepth 16384

noncomputable section

open scoped BigOperators

namespace Cert.KernelIdeal.Blocks

open Cert.KernelIdeal Cert.KernelIdeal.Gen Idealize.ShloMosaic Idealize.ShloMosaic.TcCoe Idealize.SL.Sem
open Idealize.ShloMosaic.Pipeline (Dat)
open Idealize.ShloMosaic.ValueIdx Cert.DftSpec

variable (m : (ℓ : Loc nD τ sig) → Buf (Elt Ideal) ℓ)

theorem hz : (![0, 0] : Fin 2 → Nat) = fun _ => 0 := funext fun a => by fin_cases a <;> rfl

/-- The block index of every window at every grid point, decided over the 128 points: the signal and output windows
    follow the point down the rows, the weight and bias windows stay put. -/
theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = t.val ∧ win0_6.index t (1 : Fin 2) = 0)
    ∧ (win0_7.index t (0 : Fin 2) = t.val ∧ win0_7.index t (1 : Fin 2) = 0) :=
  (by decide +kernel : ∀ t : Fin grid0.N, _)

/-- Row `p` of the block at point `t` is flat row `256 · t + p`. -/
def blockRow (t : Fin cfg0.N) (p : Fin 256) : Fin 32768 :=
  ⟨t.val * 256 + p.val, by have h1 : t.val < 128 := lt_of_lt_of_eq t.isLt N_0; have h2 := p.isLt; omega⟩

/-! ## The input windows' blocks as parts of their arrays -/

/-- Row `p` of signal window 0's block at point `t` is flat row `256 · t + p` of its array. -/
theorem signal0_block (c : Dev nD) (t : Fin cfg0.N) (p : Fin 256) (n : Fin 1024) :
    (iblk m c 0 t : Vec Ideal S256x1024 .f32) (ix2 p n) = (V m c main_v0 : S32768x1024.Idx → EReal) (ix2 (blockRow t p) n) := by
  have hw := (idx_facts t).1
  unfold iblk
  rw [View.read_apply]
  show V m c main_v0 _ = V m c main_v0 _
  congr 1
  funext a
  apply Fin.ext
  match a with
  | ⟨0, _⟩ => show win0_0.index t (0 : Fin 2) * 256 + 1 * p.val = t.val * 256 + p.val; rw [hw.1]; omega
  | ⟨1, _⟩ => show win0_0.index t (1 : Fin 2) * 1024 + 1 * n.val = n.val; rw [hw.2]; omega

/-- Row `p` of signal window 1's block at point `t` is flat row `256 · t + p` of its array. -/
theorem signal1_block (c : Dev nD) (t : Fin cfg0.N) (p : Fin 256) (n : Fin 1024) :
    (iblk m c 1 t : Vec Ideal S256x1024 .f32) (ix2 p n) = (V m c main_v1 : S32768x1024.Idx → EReal) (ix2 (blockRow t p) n) := by
  have hw := (idx_facts t).2.1
  unfold iblk
  rw [View.read_apply]
  show V m c main_v1 _ = V m c main_v1 _
  congr 1
  funext a
  apply Fin.ext
  match a with
  | ⟨0, _⟩ => show win0_1.index t (0 : Fin 2) * 256 + 1 * p.val = t.val * 256 + p.val; rw [hw.1]; omega
  | ⟨1, _⟩ => show win0_1.index t (1 : Fin 2) * 1024 + 1 * n.val = n.val; rw [hw.2]; omega

/-- The first weight window 2's block is its whole array at every point. -/
theorem whole2_block (c : Dev nD) (t : Fin cfg0.N) : (iblk m c 2 t : Vec Ideal S1024x1024 .bf16) = V m c main_v3 := by
  have hw := (idx_facts t).2.2.1
  funext j
  unfold iblk
  rw [View.read_apply]
  show V m c main_v3 _ = V m c main_v3 j
  congr 1
  funext a
  apply Fin.ext
  match a with
  | ⟨0, _⟩ => show win0_2.index t (0 : Fin 2) * 1024 + 1 * (j 0).val = (j 0).val; rw [hw.1]; omega
  | ⟨1, _⟩ => show win0_2.index t (1 : Fin 2) * 1024 + 1 * (j 1).val = (j 1).val; rw [hw.2]; omega

/-- The second weight window 3's block is its whole array at every point. -/
theorem whole3_block (c : Dev nD) (t : Fin cfg0.N) : (iblk m c 3 t : Vec Ideal S1024x1024 .bf16) = V m c main_v5 := by
  have hw := (idx_facts t).2.2.2.1
  funext j
  unfold iblk
  rw [View.read_apply]
  show V m c main_v5 _ = V m c main_v5 j
  congr 1
  funext a
  apply Fin.ext
  match a with
  | ⟨0, _⟩ => show win0_3.index t (0 : Fin 2) * 1024 + 1 * (j 0).val = (j 0).val; rw [hw.1]; omega
  | ⟨1, _⟩ => show win0_3.index t (1 : Fin 2) * 1024 + 1 * (j 1).val = (j 1).val; rw [hw.2]; omega

/-- The first bias window 4's block is its whole array at every point. -/
theorem whole4_block (c : Dev nD) (t : Fin cfg0.N) : (iblk m c 4 t : Vec Ideal S1x1024 .f32) = V m c main_v6 := by
  have hw := (idx_facts t).2.2.2.2.1
  funext j
  unfold iblk
  rw [View.read_apply]
  show V m c main_v6 _ = V m c main_v6 j
  congr 1
  funext a
  apply Fin.ext
  match a with
  | ⟨0, _⟩ => show win0_4.index t (0 : Fin 2) * 1 + 1 * (j 0).val = (j 0).val; rw [hw.1]; omega
  | ⟨1, _⟩ => show win0_4.index t (1 : Fin 2) * 1024 + 1 * (j 1).val = (j 1).val; rw [hw.2]; omega

/-- The second bias window 5's block is its whole array at every point. -/
theorem whole5_block (c : Dev nD) (t : Fin cfg0.N) : (iblk m c 5 t : Vec Ideal S1x1024 .f32) = V m c main_v7 := by
  have hw := (idx_facts t).2.2.2.2.2.1
  funext j
  unfold iblk
  rw [View.read_apply]
  show V m c main_v7 _ = V m c main_v7 j
  congr 1
  funext a
  apply Fin.ext
  match a with
  | ⟨0, _⟩ => show win0_5.index t (0 : Fin 2) * 1 + 1 * (j 0).val = (j 0).val; rw [hw.1]; omega
  | ⟨1, _⟩ => show win0_5.index t (1 : Fin 2) * 1024 + 1 * (j 1).val = (j 1).val; rw [hw.2]; omega

/-! ## Output window 6: the real part -/

/-- An entry of the array is in point `t`'s block of output window 6 iff each coordinate is in the block's range. -/
theorem mem_blk6 (t : Fin cfg0.N) (i : S32768x1024.Idx) :
    i ∈ ((cfg0.win 6).blk t).view.set ↔ ∀ a : Fin 2, win0_6.index t a * S256x1024.size a ≤ (i a).val ∧ (i a).val < win0_6.index t a * S256x1024.size a + S256x1024.size a := by
  show i ∈ ((View.whole main_v8_0).slice (win0_6.rect t)).set ↔ _
  rw [View.set_slice_whole, Rect.mem_set_unit]
  exact Iff.rfl

/-- What point `t` writes back to output window 6 is block `t` of the flattened real part of the arrays the region finds. -/
theorem flushed6_eq (c : Dev nD) (t : Fin cfg0.N) :
    (dats m 0 c).flushed 6 t = ((cfg0.win 6).blk t).view.read (Elt Ideal) (realRows (V m c main_v0) (V m c main_v1) (V m c main_v3) (V m c main_v5) (V m c main_v6) (V m c main_v7)) := by
  have hw := (idx_facts t).2.2.2.2.2.2.1
  show (cfg0.win 6).cut (grid0.coords t) ((dats m 0 c).after 6 t) = _
  rw [after0_6]
  unfold out0_6
  rw [View.canon_unit_zero hz]
  simp only [View.ld_unit_zero (S := S256x1024) hz, View.ld_unit_zero (S := S1024x1024) hz, View.ld_unit_zero (S := S1x1024) hz]
  funext j
  obtain ⟨p, q, rfl⟩ : ∃ (p : Fin 256) (q : Fin 1024), j = ix2 p q := ⟨j 0, j 1, eq_ix2 j⟩
  rw [View.read_apply]
  have he : ((cfg0.win 6).blk t).view.emb (ix2 p q) = (ix2 (blockRow t p) q : S32768x1024.Idx) := by
    funext a
    apply Fin.ext
    match a with
    | ⟨0, _⟩ => show win0_6.index t (0 : Fin 2) * 256 + 1 * p.val = t.val * 256 + p.val; rw [hw.1]; omega
    | ⟨1, _⟩ => show win0_6.index t (1 : Fin 2) * 1024 + 1 * q.val = q.val; rw [hw.2]; omega
  rw [he]
  show k0_pay7 (iblk m c 0 t) (iblk m c 1 t) (iblk m c 2 t) (iblk m c 3 t) (iblk m c 4 t) (iblk m c 5 t) (ix2 p q) = realRow (V m c main_v0) (V m c main_v1) (V m c main_v3) (V m c main_v5) (V m c main_v6) (V m c main_v7) (blockRow t p) q
  exact Payload.real_of_rows (iblk m c 0 t) (iblk m c 1 t) (iblk m c 2 t) (iblk m c 3 t) (iblk m c 4 t) (iblk m c 5 t) (V m c main_v0) (V m c main_v1) (V m c main_v3) (V m c main_v5) (V m c main_v6) (V m c main_v7) p q (blockRow t p)
    (signal0_block m c t p) (signal1_block m c t p) (whole2_block m c t) (whole3_block m c t) (whole4_block m c t) (whole5_block m c t)

/-- Every entry of output window 6's array is in the block of the point its row falls in. -/
theorem cover6 (i : S32768x1024.Idx) : ∃ t : Fin cfg0.N, (cfg0.win 6).flush t = true ∧ i ∈ ((cfg0.win 6).blk t).view.set := by
  have hi0 : (i 0).val < 32768 := (i 0).isLt
  have hi1 : (i 1).val < 1024 := (i 1).isLt
  have hN : cfg0.N = 128 := N_0
  refine ⟨⟨(i 0).val / 256, by rw [hN]; omega⟩, flush0_6 _, ?_⟩
  have hw := (idx_facts ⟨(i 0).val / 256, by rw [hN]; omega⟩).2.2.2.2.2.2.1
  rw [mem_blk6]
  intro a
  match a with
  | ⟨0, _⟩ =>
    show win0_6.index _ (0 : Fin 2) * 256 ≤ (i 0).val ∧ (i 0).val < win0_6.index _ (0 : Fin 2) * 256 + 256
    rw [hw.1]
    show (i 0).val / 256 * 256 ≤ (i 0).val ∧ (i 0).val < (i 0).val / 256 * 256 + 256
    omega
  | ⟨1, _⟩ =>
    show win0_6.index _ (1 : Fin 2) * 1024 ≤ (i 1).val ∧ (i 1).val < win0_6.index _ (1 : Fin 2) * 1024 + 1024
    rw [hw.2]
    omega

/-- After the region, output window 6's array is the flattened real part of the arrays the region finds. -/
theorem final6 (c : Dev nD) : (dats m 0 c).arrAt 6 cfg0.N = realRows (V m c main_v0) (V m c main_v1) (V m c main_v3) (V m c main_v5) (V m c main_v6) (V m c main_v7) :=
  (dats m 0 c).arrAt_eq_of_cover 6 (realRows (V m c main_v0) (V m c main_v1) (V m c main_v3) (V m c main_v5) (V m c main_v6) (V m c main_v7)) (fun t _ => flushed6_eq m c t) cover6

/-! ## Output window 7: the imaginary part -/

/-- An entry of the array is in point `t`'s block of output window 7 iff each coordinate is in the block's range. -/
theorem mem_blk7 (t : Fin cfg0.N) (i : S32768x1024.Idx) :
    i ∈ ((cfg0.win 7).blk t).view.set ↔ ∀ a : Fin 2, win0_7.index t a * S256x1024.size a ≤ (i a).val ∧ (i a).val < win0_7.index t a * S256x1024.size a + S256x1024.size a := by
  show i ∈ ((View.whole main_v8_1).slice (win0_7.rect t)).set ↔ _
  rw [View.set_slice_whole, Rect.mem_set_unit]
  exact Iff.rfl

/-- What point `t` writes back to output window 7 is block `t` of the flattened imaginary part of the arrays the region finds. -/
theorem flushed7_eq (c : Dev nD) (t : Fin cfg0.N) :
    (dats m 0 c).flushed 7 t = ((cfg0.win 7).blk t).view.read (Elt Ideal) (imagRows (V m c main_v0) (V m c main_v1) (V m c main_v3) (V m c main_v5) (V m c main_v6) (V m c main_v7)) := by
  have hw := (idx_facts t).2.2.2.2.2.2.2
  show (cfg0.win 7).cut (grid0.coords t) ((dats m 0 c).after 7 t) = _
  rw [after0_7]
  unfold out0_7
  rw [View.canon_unit_zero hz]
  simp only [View.ld_unit_zero (S := S256x1024) hz, View.ld_unit_zero (S := S1024x1024) hz, View.ld_unit_zero (S := S1x1024) hz]
  funext j
  obtain ⟨p, q, rfl⟩ : ∃ (p : Fin 256) (q : Fin 1024), j = ix2 p q := ⟨j 0, j 1, eq_ix2 j⟩
  rw [View.read_apply]
  have he : ((cfg0.win 7).blk t).view.emb (ix2 p q) = (ix2 (blockRow t p) q : S32768x1024.Idx) := by
    funext a
    apply Fin.ext
    match a with
    | ⟨0, _⟩ => show win0_7.index t (0 : Fin 2) * 256 + 1 * p.val = t.val * 256 + p.val; rw [hw.1]; omega
    | ⟨1, _⟩ => show win0_7.index t (1 : Fin 2) * 1024 + 1 * q.val = q.val; rw [hw.2]; omega
  rw [he]
  show k0_pay8 (iblk m c 0 t) (iblk m c 1 t) (iblk m c 2 t) (iblk m c 3 t) (iblk m c 4 t) (iblk m c 5 t) (ix2 p q) = imagRow (V m c main_v0) (V m c main_v1) (V m c main_v3) (V m c main_v5) (V m c main_v6) (V m c main_v7) (blockRow t p) q
  exact Payload.imag_of_rows (iblk m c 0 t) (iblk m c 1 t) (iblk m c 2 t) (iblk m c 3 t) (iblk m c 4 t) (iblk m c 5 t) (V m c main_v0) (V m c main_v1) (V m c main_v3) (V m c main_v5) (V m c main_v6) (V m c main_v7) p q (blockRow t p)
    (signal0_block m c t p) (signal1_block m c t p) (whole2_block m c t) (whole3_block m c t) (whole4_block m c t) (whole5_block m c t)

/-- Every entry of output window 7's array is in the block of the point its row falls in. -/
theorem cover7 (i : S32768x1024.Idx) : ∃ t : Fin cfg0.N, (cfg0.win 7).flush t = true ∧ i ∈ ((cfg0.win 7).blk t).view.set := by
  have hi0 : (i 0).val < 32768 := (i 0).isLt
  have hi1 : (i 1).val < 1024 := (i 1).isLt
  have hN : cfg0.N = 128 := N_0
  refine ⟨⟨(i 0).val / 256, by rw [hN]; omega⟩, flush0_7 _, ?_⟩
  have hw := (idx_facts ⟨(i 0).val / 256, by rw [hN]; omega⟩).2.2.2.2.2.2.2
  rw [mem_blk7]
  intro a
  match a with
  | ⟨0, _⟩ =>
    show win0_7.index _ (0 : Fin 2) * 256 ≤ (i 0).val ∧ (i 0).val < win0_7.index _ (0 : Fin 2) * 256 + 256
    rw [hw.1]
    show (i 0).val / 256 * 256 ≤ (i 0).val ∧ (i 0).val < (i 0).val / 256 * 256 + 256
    omega
  | ⟨1, _⟩ =>
    show win0_7.index _ (1 : Fin 2) * 1024 ≤ (i 1).val ∧ (i 1).val < win0_7.index _ (1 : Fin 2) * 1024 + 1024
    rw [hw.2]
    omega

/-- After the region, output window 7's array is the flattened imaginary part of the arrays the region finds. -/
theorem final7 (c : Dev nD) : (dats m 0 c).arrAt 7 cfg0.N = imagRows (V m c main_v0) (V m c main_v1) (V m c main_v3) (V m c main_v5) (V m c main_v6) (V m c main_v7) :=
  (dats m 0 c).arrAt_eq_of_cover 7 (imagRows (V m c main_v0) (V m c main_v1) (V m c main_v3) (V m c main_v5) (V m c main_v6) (V m c main_v7)) (fun t _ => flushed7_eq m c t) cover7

end Cert.KernelIdeal.Blocks

end
-- ==== Proof.Layout.lean ====
/-
  The flattened layout computes the specification.

  Flattening `[8, 4096, 1024] → [32768, 1024]` keeps the row-major position, so flat row `4096 · b + f` is row `(b, f)`;
  the transposed weights at `(n, k)` are the weights at `(k, n)`; a bias as a `1 × 1024` row at `(0, k)` is its entry `k`;
  and un-flattening the result puts flat row `4096 · b + f` back at `(b, f)`. Reading the flattened formulas of Spec.lean
  through these four facts gives `realPart` and `imagPart` term by term.
-/
import proofs.«130078_j75677323756101_1_alg».proof.Proof.Spec
import Idealize.ShloMosaic.Lib.Pipeline.Value
import Idealize.ShloMosaic.Lib.ValueLayout

noncomputable section

open scoped BigOperators

namespace Cert.DftSpec

open Idealize.ShloMosaic Idealize.ShloMosaic.ValueIdx

/-- A flattened signal at flat row `4096 · b + f` reads the signal's row `(b, f)`. -/
theorem signal_flat (x : Sig.Idx → EReal) (h : Sig.ShapeCasts Rows) (b : Fin 8) (f : Fin 4096) (n : Fin 1024) :
    shapeCast Rows x h (ix2 (flatRow b f) n) = x (ix3 b f n) :=
  shapeCast_apply x h _ _ (by
    rw [Shape.rowMajor_val_three, Shape.rowMajor_val_two]
    rfl)

/-- Un-flattening reads flat row `4096 · b + f` at `(b, f)`. -/
theorem unflat_at (y : Rows.Idx → EReal) (h : Rows.ShapeCasts Sig) (b : Fin 8) (f : Fin 4096) (k : Fin 1024) :
    shapeCast Sig y h (ix3 b f k) = y (ix2 (flatRow b f) k) :=
  shapeCast_apply y h _ _ (by
    rw [Shape.rowMajor_val_three, Shape.rowMajor_val_two]
    rfl)

/-- The transposed weights. -/
theorem weight_T (w : Wt.Idx → EReal) (h : Wt.Transposes [1, 0] Wt) (n k : Fin 1024) :
    transpose Wt [1, 0] w h (ix2 n k) = w (ix2 k n) :=
  transpose_ix2_apply w h n k

/-- The same, as a function of the index. -/
theorem weight_T_fun (w : Wt.Idx → EReal) (h : Wt.Transposes [1, 0] Wt) :
    transpose Wt [1, 0] w h = fun j => w (ix2 (j 1) (j 0)) := by
  funext j
  obtain ⟨n, k, rfl⟩ : ∃ (n k : Fin 1024), j = ix2 n k := ⟨j 0, j 1, eq_ix2 j⟩
  exact weight_T w h n k

/-- A bias as a one-row matrix. -/
theorem bias_row (b : Bias.Idx → EReal) (h : Bias.ShapeCasts Row1) (k : Fin 1024) :
    shapeCast Row1 b h (ix2 (0 : Fin 1) k) = b (ix1 k) :=
  shapeCast_a_1a_apply b h 0 k

/-- The flattened real part, un-flattened, is the real part. -/
theorem realPart_of_rows (xr xi : Sig.Idx → EReal) (wr wi : Wt.Idx → EReal) (br bi : Bias.Idx → EReal)
    (h1 : Sig.ShapeCasts Rows) (h2 : Wt.Transposes [1, 0] Wt) (h3 : Bias.ShapeCasts Row1) (h4 : Rows.ShapeCasts Sig) :
    shapeCast Sig (realRows (shapeCast Rows xr h1) (shapeCast Rows xi h1) (transpose Wt [1, 0] wr h2) (transpose Wt [1, 0] wi h2)
        (shapeCast Row1 br h3) (shapeCast Row1 bi h3)) h4
      = realPart xr xi wr wi br bi := by
  funext i
  obtain ⟨b, f, k, rfl⟩ : ∃ (b : Fin 8) (f : Fin 4096) (k : Fin 1024), i = ix3 b f k := ⟨i 0, i 1, i 2, eq_ix3 i⟩
  rw [unflat_at]
  show realRow _ _ _ _ _ _ (flatRow b f) k = _
  unfold realRow
  rw [weight_T_fun wr h2, weight_T_fun wi h2]
  simp only [signal_flat, bias_row]
  rfl

/-- The flattened imaginary part, un-flattened, is the imaginary part. -/
theorem imagPart_of_rows (xr xi : Sig.Idx → EReal) (wr wi : Wt.Idx → EReal) (br bi : Bias.Idx → EReal)
    (h1 : Sig.ShapeCasts Rows) (h2 : Wt.Transposes [1, 0] Wt) (h3 : Bias.ShapeCasts Row1) (h4 : Rows.ShapeCasts Sig) :
    shapeCast Sig (imagRows (shapeCast Rows xr h1) (shapeCast Rows xi h1) (transpose Wt [1, 0] wr h2) (transpose Wt [1, 0] wi h2)
        (shapeCast Row1 br h3) (shapeCast Row1 bi h3)) h4
      = imagPart xr xi wr wi br bi := by
  funext i
  obtain ⟨b, f, k, rfl⟩ : ∃ (b : Fin 8) (f : Fin 4096) (k : Fin 1024), i = ix3 b f k := ⟨i 0, i 1, i 2, eq_ix3 i⟩
  rw [unflat_at]
  show imagRow _ _ _ _ _ _ (flatRow b f) k = _
  unfold imagRow
  rw [weight_T_fun wr h2, weight_T_fun wi h2]
  simp only [signal_flat, bias_row]
  rfl

end Cert.DftSpec

end
-- ==== Proof.RunValue.lean ====
/-
  The kernel program's run, read: each result array is the specification of the argument arrays.

  Before the region the program flattens the two signals, transposes and narrows the two weight matrices (narrowing is
  the identity on the extended reals), and lays each bias out as a `1 × 1024` row; these are the arrays the region finds.
  After the region each output array holds the flattened result of those arrays (Blocks.lean), and the two lines after
  the region un-flatten them. Layout.lean says that this composite is `realPart` / `imagPart` of the arguments.
-/
import proofs.«130078_j75677323756101_1_alg».proof.Proof.Blocks
import proofs.«130078_j75677323756101_1_alg».proof.Proof.Layout
import Idealize.ShloMosaic.Lib.StableHlo.Run

noncomputable section

open scoped BigOperators

namespace Cert.KernelIdeal.RunValue

open Cert.KernelIdeal Cert.KernelIdeal.Gen Idealize.ShloMosaic Idealize.ShloMosaic.TcCoe Idealize.SL.Sem
open Idealize.ShloMosaic.Pipeline (Dat)
open Idealize.ShloMosaic.ValueIdx Cert.DftSpec Cert.KernelIdeal.Blocks

variable (m : (ℓ : Loc nD τ sig) → Buf (Elt Ideal) ℓ) (ρ : Dev nD → PrngReg)

/-! ## The arrays the region finds -/

theorem entry_v0 (c : Dev nD) : (V m c main_v0 : S32768x1024.Idx → EReal)
    = shapeCast S32768x1024 (m ((c : Thread nD τ).loc main_arg0)) shapeCasts_S8x4096x1024_S32768x1024 := by
  show StableHlo.after hostOps0 (fun b => m (c, b)) (Proc.devRef .tc main_v0) = _
  after_results
  rfl

theorem entry_v1 (c : Dev nD) : (V m c main_v1 : S32768x1024.Idx → EReal)
    = shapeCast S32768x1024 (m ((c : Thread nD τ).loc main_arg1)) shapeCasts_S8x4096x1024_S32768x1024 := by
  show StableHlo.after hostOps0 (fun b => m (c, b)) (Proc.devRef .tc main_v1) = _
  after_results
  rfl

theorem entry_v3 (c : Dev nD) : (V m c main_v3 : S1024x1024.Idx → EReal)
    = transpose S1024x1024 [1, 0] (m ((c : Thread nD τ).loc main_arg2)) transposes_S1024x1024_S1024x1024_1_0 := by
  show StableHlo.after hostOps0 (fun b => m (c, b)) (Proc.devRef .tc main_v3) = _
  after_results
  rfl

theorem entry_v5 (c : Dev nD) : (V m c main_v5 : S1024x1024.Idx → EReal)
    = transpose S1024x1024 [1, 0] (m ((c : Thread nD τ).loc main_arg3)) transposes_S1024x1024_S1024x1024_1_0 := by
  show StableHlo.after hostOps0 (fun b => m (c, b)) (Proc.devRef .tc main_v5) = _
  after_results
  rfl

theorem entry_v6 (c : Dev nD) : (V m c main_v6 : S1x1024.Idx → EReal)
    = shapeCast S1x1024 (m ((c : Thread nD τ).loc main_arg4)) shapeCasts_S1024_S1x1024 := by
  show StableHlo.after hostOps0 (fun b => m (c, b)) (Proc.devRef .tc main_v6) = _
  after_results
  rfl

theorem entry_v7 (c : Dev nD) : (V m c main_v7 : S1x1024.Idx → EReal)
    = shapeCast S1x1024 (m ((c : Thread nD τ).loc main_arg5)) shapeCasts_S1024_S1x1024 := by
  show StableHlo.after hostOps0 (fun b => m (c, b)) (Proc.devRef .tc main_v7) = _
  after_results
  rfl

/-! ## The two lines after the region un-flatten the output arrays -/

theorem tail_v9 (c : Dev nD) : Pipeline.afterTail₀ cfgs (dats m) 0 (V0 m) [hostOps1] c main_v9
    = shapeCast S8x4096x1024 ((dats m 0 c).arrAt 6 cfg0.N) shapeCasts_S32768x1024_S8x4096x1024 := by
  unfold Pipeline.afterTail₀
  show StableHlo.after hostOps1 _ (Proc.devRef .tc main_v9) = _
  after_results
  funext i
  exact congrFun (congrArg (fun X => shapeCast S8x4096x1024 X shapeCasts_S32768x1024_S8x4096x1024)
    (Pipeline.withArrays_arr (cfgs 0).spec launch0.win.arr_inj c (V0 m c) (fun w => (dats m 0 c).arrAt w (cfgs 0).N) 6)) i

theorem tail_v10 (c : Dev nD) : Pipeline.afterTail₀ cfgs (dats m) 0 (V0 m) [hostOps1] c main_v10
    = shapeCast S8x4096x1024 ((dats m 0 c).arrAt 7 cfg0.N) shapeCasts_S32768x1024_S8x4096x1024 := by
  unfold Pipeline.afterTail₀
  show StableHlo.after hostOps1 _ (Proc.devRef .tc main_v10) = _
  after_results
  funext i
  exact congrFun (congrArg (fun X => shapeCast S8x4096x1024 X shapeCasts_S32768x1024_S8x4096x1024)
    (Pipeline.withArrays_arr (cfgs 0).spec launch0.win.arr_inj c (V0 m c) (fun w => (dats m 0 c).arrAt w (cfgs 0).N) 7)) i

/-! ## The results -/

/-- The program's first result. -/
theorem result_v9 (c : Dev nD) : Pipeline.afterTail₀ cfgs (dats m) 0 (V0 m) [hostOps1] c main_v9
    = realPart (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  rw [tail_v9, final6, entry_v0, entry_v1, entry_v3, entry_v5, entry_v6, entry_v7]
  exact realPart_of_rows _ _ _ _ _ _ _ _ _ _

/-- The program's second result. -/
theorem result_v10 (c : Dev nD) : Pipeline.afterTail₀ cfgs (dats m) 0 (V0 m) [hostOps1] c main_v10
    = imagPart (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  rw [tail_v10, final7, entry_v0, entry_v1, entry_v3, entry_v5, entry_v6, entry_v7]
  exact imagPart_of_rows _ _ _ _ _ _ _ _ _ _

/-! ## The run -/

/-- Every weakly fair execution of the kernel program terminates with its two results at the real and the imaginary
    part of its arguments, the arguments unchanged. -/
theorem run : θ_run defs (onTc (τ := τ) (main (F := Ideal))) ⟨m, fun _ => 0, ρ⟩ fun r => ∀ c : Dev nD,
      r.2.mem ((c : Thread nD τ).loc main_v9) = realPart (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c : Thread nD τ).loc main_v10) = imagPart (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c =>
    ⟨((h c).2 main_v9 (Pipeline.mem_restRefs_of main_v9 (by decide) (by decide))).trans (result_v9 m c),
      ((h c).2 main_v10 (Pipeline.mem_restRefs_of main_v10 (by decide) (by decide))).trans (result_v10 m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.KernelIdeal.RunValue

end
-- ==== Proof.lean ====
/-
  A discrete Fourier transform written as four full-window convolutions: for signals `x_r, x_i` of shape
  `[8, 4096, 1024]`, weights `w_r, w_i` of shape `[1024, 1024]` and biases `b_r, b_i` of shape `[1024]`,
    real[b, f, k] = (∑ n, x_r[b, f, n] · w_r[k, n] + b_r[k]) − (∑ n, x_i[b, f, n] · w_i[k, n] + b_i[k])
    imag[b, f, k] = (∑ n, x_r[b, f, n] · w_i[k, n] + b_i[k]) + (∑ n, x_i[b, f, n] · w_r[k, n] + b_r[k]).
  The reference forms the four products by `dot_general` over the last axis of the signal and the second axis of the
  weights, broadcasts the biases and combines (RefValue.lean). The kernel flattens the signals to 32768 rows,
  transposes the weights, and runs one grid of 128 points, each computing 256 rows of both results by four matrix
  products and the same combination (Payload.lean, Blocks.lean), then un-flattens (RunValue.lean, Layout.lean). Over
  the extended reals both are the two functions of Spec.lean, with the same bracketing of every sum and difference, so
  the equality needs no finiteness of the inputs: the precondition is never opened. The ideal pass rewrote nothing in
  the kernel, so the idealized kernel is the kernel's own text read over the extended reals.
-/
import proofs.«130078_j75677323756101_1_alg».proof.Defs
import proofs.«130078_j75677323756101_1_alg».proof.Proof.Gen.Kernel
import proofs.«130078_j75677323756101_1_alg».proof.Proof.Gen.Kernel.Skeleton
import proofs.«130078_j75677323756101_1_alg».proof.Proof.Gen.Kernel.Launch
import proofs.«130078_j75677323756101_1_alg».proof.Proof.Gen.Kernel.Points
import proofs.«130078_j75677323756101_1_alg».proof.Proof.Gen.Kernel.Frame
import proofs.«130078_j75677323756101_1_alg».proof.Proof.Gen.KernelIdeal
import proofs.«130078_j75677323756101_1_alg».proof.Proof.Gen.KernelIdeal.Skeleton
import proofs.«130078_j75677323756101_1_alg».proof.Proof.Gen.KernelIdeal.Launch
import proofs.«130078_j75677323756101_1_alg».proof.Proof.Gen.KernelIdeal.Points
import proofs.«130078_j75677323756101_1_alg».proof.Proof.Gen.KernelIdeal.Frame
import proofs.«130078_j75677323756101_1_alg».proof.Proof.Gen.ReferenceIdeal
import proofs.«130078_j75677323756101_1_alg».proof.Proof.Gen.ReferenceIdeal.Run
import proofs.«130078_j75677323756101_1_alg».proof.Proof.Gen.ReferenceIdeal.Read
import proofs.«130078_j75677323756101_1_alg».proof.Proof.Gen.Pre_finite_inputs
import proofs.«130078_j75677323756101_1_alg».proof.Proof.RefValue
import proofs.«130078_j75677323756101_1_alg».proof.Proof.RunValue
import Idealize.ShloMosaic.Adequacy
import Idealize.ShloMosaic.Init

noncomputable section

namespace Cert.Proof

open Idealize.ShloMosaic Idealize.SL.Sem

/-- The kernel program terminates without a fault and keeps its arguments. -/
theorem frame_kernel : @Cert.frame_Kernel Cert.Kernel.Gen.facts Cert.Pre_finite_inputs.Gen.facts :=
  fun m ρ _ => Cert.Kernel.Gen.frame m ρ

/-- So does the kernel program read over the extended reals. -/
theorem frame_kernelIdeal : @Cert.frame_KernelIdeal Cert.KernelIdeal.Gen.facts Cert.Pre_finite_inputs.Gen.facts :=
  fun m ρ _ => Cert.KernelIdeal.Gen.frame m ρ

/-- The reference is a straight line of host operations: it terminates with its arguments unchanged. -/
theorem frame_reference : @Cert.frame_ReferenceIdeal Cert.ReferenceIdeal.Gen.facts Cert.Pre_finite_inputs.Gen.facts :=
  fun m ρ _ => (θ_run Cert.ReferenceIdeal.defs _ _).mono (fun _ h c => (h c).2.2)
    (Cert.ReferenceIdeal.Value.run (F := Ideal) m ρ)

/-- Both programs end with the real part in their first result and the imaginary part in their second, of arguments
    that agree. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨fun c => Cert.DftSpec.realPart (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)),
    fun c => Cert.DftSpec.imagPart (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)),
    Cert.KernelIdeal.RunValue.run m ρ, ?_⟩
  refine (θ_run Cert.ReferenceIdeal.defs _ _).mono (fun _ h c => ⟨?_, ?_, (h c).2.2⟩)
    (Cert.ReferenceIdeal.Value.run (F := Ideal) m' ρ')
  · rw [(h c).1, Cert.ReferenceIdeal.Read.val_main_v10_eq, Cert.ReferenceIdeal.RefValue.real_eq,
      (hagree c).1, (hagree c).2.1, (hagree c).2.2.1, (hagree c).2.2.2.1, (hagree c).2.2.2.2.1, (hagree c).2.2.2.2.2]
  · rw [(h c).2.1, Cert.ReferenceIdeal.Read.val_main_v17_eq, Cert.ReferenceIdeal.RefValue.imag_eq,
      (hagree c).1, (hagree c).2.1, (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
